-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024x16x16 : Shape := ⟨4, ![256, 1024, 16, 16]⟩
abbrev S_ : Shape := ⟨0, ![]⟩

class Facts : Prop where
  bcast_S_S256x1024x16x16 : S_.BroadcastsInDim S256x1024x16x16 (![] : Fin 0 → Fin S256x1024x16x16.rank)
  reducesTo_S256x1024x16x16_S_d0_1_2_3 : S256x1024x16x16.ReducesTo [0, 1, 2, 3] S_
  h_S_ : 0 < S_.numel

variable [Facts]

def fn {F : FTy → Type} [FloatOps F] (main_arg0 : FVec F S256x1024x16x16 .f32) : IVec S_ 1 :=
  let main_v0 : FVec F S256x1024x16x16 .f32 := Host.absf main_arg0
  let main_cst : FVec F S_ .f32 := constant S_ .f32 0x7F800000#32
  let main_v1 : FVec F S256x1024x16x16 .f32 := broadcastInDim S256x1024x16x16 ![] bcast_S_S256x1024x16x16 main_cst
  let main_v2 : IVec S256x1024x16x16 1 := cmpf .olt main_v0 main_v1
  let main_c : IVec S_ 1 := constantI S_ 1 1#1
  let main_v3 : IVec S_ 1 := (fun x v => Host.reduce IntOp.andi x v reducesTo_S256x1024x16x16_S_d0_1_2_3 h_S_) main_v2 main_c
  main_v3
-- ==== Kernel.lean ====
abbrev S256x1024x16x16 : Shape := ⟨4, ![256, 1024, 16, 16]⟩
abbrev S256x1024x256 : Shape := ⟨3, ![256, 1024, 256]⟩
abbrev S256x512x512 : Shape := ⟨3, ![256, 512, 512]⟩
abbrev S4x1024x256 : Shape := ⟨3, ![4, 1024, 256]⟩
abbrev S4x512x512 : Shape := ⟨3, ![4, 512, 512]⟩
abbrev S1x1024x256 : Shape := ⟨3, ![1, 1024, 256]⟩
abbrev S1024x256 : Shape := ⟨2, ![1024, 256]⟩
abbrev S32x32x16x16 : Shape := ⟨4, ![32, 32, 16, 16]⟩
abbrev S16x32x16x32 : Shape := ⟨4, ![16, 32, 16, 32]⟩
abbrev S512x512 : Shape := ⟨2, ![512, 512]⟩
abbrev S1x512x512 : Shape := ⟨3, ![1, 512, 512]⟩
abbrev S256x1x512x512 : Shape := ⟨4, ![256, 1, 512, 512]⟩

abbrev nBuf : Space → Nat
  | .hbm => 4
  | .vmem => 4
  | .smem => 0
  | _ => 0

abbrev bufTy : (tb : Table) → Fin (tcTables nBuf tb) → BufTy
  | .hbm, ⟨0, _⟩ => ⟨S256x1024x16x16, .f32⟩
  | .hbm, ⟨1, _⟩ => ⟨S256x1024x256, .f32⟩
  | .hbm, ⟨2, _⟩ => ⟨S256x512x512, .f32⟩
  | .hbm, ⟨3, _⟩ => ⟨S256x1x512x512, .f32⟩
  | .local _ .vmem, ⟨0, _⟩ => ⟨S4x1024x256, .f32⟩
  | .local _ .vmem, ⟨1, _⟩ => ⟨S4x1024x256, .f32⟩
  | .local _ .vmem, ⟨2, _⟩ => ⟨S4x512x512, .f32⟩
  | .local _ .vmem, ⟨3, _⟩ => ⟨S4x512x512, .f32⟩
  | _, _ => ⟨S256x1024x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S256x1024x16x16_S256x1024x256 : S256x1024x16x16.ShapeCasts S256x1024x256
  inb_S4x1024x256_S1x1024x256_0_0_0 : ∀ a, (![0, 0, 0] : Fin 3 → Nat) a + S1x1024x256.size a ≤ S4x1024x256.size a
  h_S1x1024x256 : 0 < S1x1024x256.numel
  shapeCasts_S1x1024x256_S1024x256 : S1x1024x256.ShapeCasts S1024x256
  shapeCasts_S1024x256_S32x32x16x16 : S1024x256.ShapeCasts S32x32x16x16
  transposes_S32x32x16x16_p2_1_3_0_S16x32x16x32 : S32x32x16x16.Transposes [2, 1, 3, 0] S16x32x16x32
  shapeCasts_S16x32x16x32_S512x512 : S16x32x16x32.ShapeCasts S512x512
  inb_S4x512x512_S1x512x512_0_0_0 : ∀ a, (![0, 0, 0] : Fin 3 → Nat) a + S1x512x512.size a ≤ S4x512x512.size a
  h_S1x512x512 : 0 < S1x512x512.numel
  shapeCasts_S1x512x512_S512x512 : S1x512x512.ShapeCasts S512x512
  shapeCasts_S512x512_S1x512x512 : S512x512.ShapeCasts S1x512x512
  inb_S4x1024x256_S1x1024x256_1_0_0 : ∀ a, (![1, 0, 0] : Fin 3 → Nat) a + S1x1024x256.size a ≤ S4x1024x256.size a
  inb_S4x512x512_S1x512x512_1_0_0 : ∀ a, (![1, 0, 0] : Fin 3 → Nat) a + S1x512x512.size a ≤ S4x512x512.size a
  inb_S4x1024x256_S1x1024x256_2_0_0 : ∀ a, (![2, 0, 0] : Fin 3 → Nat) a + S1x1024x256.size a ≤ S4x1024x256.size a
  inb_S4x512x512_S1x512x512_2_0_0 : ∀ a, (![2, 0, 0] : Fin 3 → Nat) a + S1x512x512.size a ≤ S4x512x512.size a
  inb_S4x1024x256_S1x1024x256_3_0_0 : ∀ a, (![3, 0, 0] : Fin 3 → Nat) a + S1x1024x256.size a ≤ S4x1024x256.size a
  inb_S4x512x512_S1x512x512_3_0_0 : ∀ a, (![3, 0, 0] : Fin 3 → Nat) a + S1x512x512.size a ≤ S4x512x512.size a
  bcast_S256x512x512_S256x1x512x512_0_2_3 : S256x512x512.BroadcastsInDim S256x1x512x512 (![0, 2, 3] : Fin 3 → Fin S256x1x512x512.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x256.size a ≤ S256x1024x256.size a
  hwx0_0 : ∀ i : grid0.Coords, EltTy.bits .f32 = 32 ∨ (Rect.block (s := S256x1024x256) S4x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x512.size a ≤ S256x512x512.size a
  hwx0_1 : ∀ i : grid0.Coords, EltTy.bits .f32 = 32 ∨ (Rect.block (s := S256x512x512) S4x512x512.size (cc0_transform_1 i) (hinb0_1 i)).WholeWords (EltTy.packing .f32)

variable [Facts₀]

abbrev win0_0 : Pipeline.Window sig grid0 :=
  Pipeline.Window.ofSpec (Memref.whole main_v0) S4x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x1024x16x16 : Shape := ⟨4, ![256, 1024, 16, 16]⟩
abbrev S256x32x32x16x16 : Shape := ⟨5, ![256, 32, 32, 16, 16]⟩
abbrev S256x16x32x16x32 : Shape := ⟨5, ![256, 16, 32, 16, 32]⟩
abbrev S256x1x512x512 : Shape := ⟨4, ![256, 1, 512, 512]⟩

abbrev nBuf : Space → Nat
  | .hbm => 4
  | .vmem => 0
  | .smem => 0
  | _ => 0

abbrev bufTy : (tb : Table) → Fin (tcTables nBuf tb) → BufTy
  | .hbm, ⟨0, _⟩ => ⟨S256x1024x16x16, .f32⟩
  | .hbm, ⟨1, _⟩ => ⟨S256x32x32x16x16, .f32⟩
  | .hbm, ⟨2, _⟩ => ⟨S256x16x32x16x32, .f32⟩
  | .hbm, ⟨3, _⟩ => ⟨S256x1x512x512, .f32⟩
  | _, _ => ⟨S256x1024x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]

class Facts₀ : Prop where
  shapeCasts_S256x1024x16x16_S256x32x32x16x16 : S256x1024x16x16.ShapeCasts S256x32x32x16x16
  transposes_S256x32x32x16x16_S256x16x32x16x32_0_3_2_4_1 : S256x32x32x16x16.Transposes [0, 3, 2, 4, 1] S256x16x32x16x32
  shapeCasts_S256x16x32x16x32_S256x1x512x512 : S256x16x32x16x32.ShapeCasts S256x1x512x512

variable [Facts₀]

class Facts : Prop extends Facts₀ where

variable [Facts]
-- ==== Proof.Tile.lean ====
/-
  One image's rearrangement, read at an index.

  The kernel takes one image as a [1024, 256] matrix — channel c = j·32 + i down the rows, pixel p = h·16 + w along the
  columns — and lays it out as a [512, 512] picture whose entry (h·32 + i, w·32 + j) is that image's entry (j·32 + i, h·16 + w):
  every pixel (h, w) becomes a 32 × 32 tile, the channel's low digit i running down the tile and its high digit j across.
  It does so in five steps: drop the leading unit axis, split rows into (j, i) and columns into (h, w), permute (j, i, h, w)
  to (h, i, w, j), merge (h, i) and (w, j), and put the unit axis back. Each step moves no value, so the composite reads its
  operand at ONE index; this file names that index (`tileSrc`) and proves it, one step at a time, by row-major arithmetic.
  Nothing here depends on what the entries are.
-/
import Idealize.ShloMosaic.Lib.Pipeline.Value
import Idealize.ShloMosaic.Lib.ValueIdx

noncomputable section

namespace Cert.Unshuffle

open Idealize.ShloMosaic

abbrev T1x1024x256 : Shape := ⟨3, ![1, 1024, 256]⟩
abbrev T1024x256 : Shape := ⟨2, ![1024, 256]⟩
abbrev T32x32x16x16 : Shape := ⟨4, ![32, 32, 16, 16]⟩
abbrev T16x32x16x32 : Shape := ⟨4, ![16, 32, 16, 32]⟩
abbrev T512x512 : Shape := ⟨2, ![512, 512]⟩
abbrev T1x512x512 : Shape := ⟨3, ![1, 512, 512]⟩

/-- Entry (0, r, q) of the picture, with the unit axis dropped: (r, q). -/
abbrev pic (y : T1x512x512.Idx) : T512x512.Idx := fun a => match a with
  | ⟨0, _⟩ => ⟨(y 1).val, (y 1).isLt⟩
  | ⟨1, _⟩ => ⟨(y 2).val, (y 2).isLt⟩

/-- The row r = h·32 + i and the column q = w·32 + j split into their digits: (h, i, w, j). -/
abbrev digits (y : T1x512x512.Idx) : T16x32x16x32.Idx := fun a => match a with
  | ⟨0, _⟩ => ⟨(y 1).val / 32, by have h1 : (y 1).val < 512 := (y 1).isLt; show (y 1).val / 32 < 16; omega⟩
  | ⟨1, _⟩ => ⟨(y 1).val % 32, by show (y 1).val % 32 < 32; omega⟩
  | ⟨2, _⟩ => ⟨(y 2).val / 32, by have h2 : (y 2).val < 512 := (y 2).isLt; show (y 2).val / 32 < 16; omega⟩
  | ⟨3, _⟩ => ⟨(y 2).val % 32, by show (y 2).val % 32 < 32; omega⟩

/-- The same digits in the operand's order: (j, i, h, w). -/
abbrev digitsSrc (y : T1x512x512.Idx) : T32x32x16x16.Idx := fun a => match a with
  | ⟨0, _⟩ => ⟨(y 2).val % 32, by show (y 2).val % 32 < 32; omega⟩
  | ⟨1, _⟩ => ⟨(y 1).val % 32, by show (y 1).val % 32 < 32; omega⟩
  | ⟨2, _⟩ => ⟨(y 1).val / 32, by have h1 : (y 1).val < 512 := (y 1).isLt; show (y 1).val / 32 < 16; omega⟩
  | ⟨3, _⟩ => ⟨(y 2).val / 32, by have h2 : (y 2).val < 512 := (y 2).isLt; show (y 2).val / 32 < 16; omega⟩

/-- Channel j·32 + i and pixel h·16 + w of the image as a matrix. -/
abbrev matSrc (y : T1x512x512.Idx) : T1024x256.Idx := fun a => match a with
  | ⟨0, _⟩ => ⟨(y 2).val % 32 * 32 + (y 1).val % 32, by show (y 2).val % 32 * 32 + (y 1).val % 32 < 1024; omega⟩
  | ⟨1, _⟩ => ⟨(y 1).val / 32 * 16 + (y 2).val / 32, by
      have h1 : (y 1).val < 512 := (y 1).isLt; have h2 : (y 2).val < 512 := (y 2).isLt
      show (y 1).val / 32 * 16 + (y 2).val / 32 < 256; omega⟩

/-- Where entry (0, h·32 + i, w·32 + j) of the picture comes from: entry (0, j·32 + i, h·16 + w) of the image. -/
abbrev tileSrc (y : T1x512x512.Idx) : T1x1024x256.Idx := fun a => match a with
  | ⟨0, _⟩ => ⟨0, by show 0 < 1; omega⟩
  | ⟨1, _⟩ => ⟨(y 2).val % 32 * 32 + (y 1).val % 32, by show (y 2).val % 32 * 32 + (y 1).val % 32 < 1024; omega⟩
  | ⟨2, _⟩ => ⟨(y 1).val / 32 * 16 + (y 2).val / 32, by
      have h1 : (y 1).val < 512 := (y 1).isLt; have h2 : (y 2).val < 512 := (y 2).isLt
      show (y 1).val / 32 * 16 + (y 2).val / 32 < 256; omega⟩

/-- THE TILE LAW: the five-step rearrangement of an image, read at `y`, is the image at `tileSrc y`. -/
theorem tile_apply {α : Type} (v : T1x1024x256.Idx → α)
    (c1 : T1x1024x256.ShapeCasts T1024x256) (c2 : T1024x256.ShapeCasts T32x32x16x16)
    (tr : T32x32x16x16.Transposes [2, 1, 3, 0] T16x32x16x32) (c3 : T16x32x16x32.ShapeCasts T512x512)
    (c4 : T512x512.ShapeCasts T1x512x512) (y : T1x512x512.Idx) :
    shapeCast T1x512x512 (shapeCast T512x512 (transpose T16x32x16x32 [2, 1, 3, 0]
      (shapeCast T32x32x16x16 (shapeCast T1024x256 v c1) c2) tr) c3) c4 y = v (tileSrc y) := by
  have h0 : (y 0).val < 1 := (y 0).isLt
  have h1 : (y 1).val < 512 := (y 1).isLt
  have h2 : (y 2).val < 512 := (y 2).isLt
  -- the unit axis back on: position r·512 + q either way
  refine (shapeCast_apply _ c4 y (pic y) ?_).trans ?_
  · rewrite [Shape.rowMajor_val_two, Shape.rowMajor_val_three]
    show (y 1).val * 512 + (y 2).val = ((y 0).val * 512 + (y 1).val) * 512 + (y 2).val
    omega
  -- (h, i) merged into r and (w, j) into q
  refine (shapeCast_apply _ c3 (pic y) (digits y) ?_).trans ?_
  · rewrite [Shape.rowMajor_val_four, Shape.rowMajor_val_two]
    show (((y 1).val / 32 * 32 + (y 1).val % 32) * 16 + (y 2).val / 32) * 32 + (y 2).val % 32 = (y 1).val * 512 + (y 2).val
    omega
  -- the permutation: result axes (h, i, w, j) are operand axes 2, 1, 3, 0
  refine (transpose_apply [2, 1, 3, 0] _ tr (digits y) (digitsSrc y) (fun b => match b with
    | ⟨0, _⟩ => rfl
    | ⟨1, _⟩ => rfl
    | ⟨2, _⟩ => rfl
    | ⟨3, _⟩ => rfl)).trans ?_
  -- rows split into (j, i), columns into (h, w)
  refine (shapeCast_apply _ c2 (digitsSrc y) (matSrc y) ?_).trans ?_
  · rewrite [Shape.rowMajor_val_two, Shape.rowMajor_val_four]
    show ((y 2).val % 32 * 32 + (y 1).val % 32) * 256 + ((y 1).val / 32 * 16 + (y 2).val / 32)
      = ((((y 2).val % 32) * 32 + (y 1).val % 32) * 16 + (y 1).val / 32) * 16 + (y 2).val / 32
    omega
  -- the leading unit axis dropped
  refine shapeCast_apply v c1 (matSrc y) (tileSrc y) ?_
  rewrite [Shape.rowMajor_val_three, Shape.rowMajor_val_two]
  show (0 * 1024 + ((y 2).val % 32 * 32 + (y 1).val % 32)) * 256 + ((y 1).val / 32 * 16 + (y 2).val / 32)
    = ((y 2).val % 32 * 32 + (y 1).val % 32) * 256 + ((y 1).val / 32 * 16 + (y 2).val / 32)
  omega

end Cert.Unshuffle

end
-- ==== Proof.Block.lean ====
/-
  What one grid point writes: four images, each rearranged by the tile law.

  At a grid point the kernel holds four images (a [4, 1024, 256] block) and stores four pictures (a [4, 512, 512] block),
  image k to picture k. Each store's value is the five-step rearrangement of the image it loaded (Tile.lean), so all four
  stores are restrictions of ONE function of the input block: entry (k, h·32 + i, w·32 + j) of the output block is entry
  (k, j·32 + i, h·16 + w) of the input block. The four stores tile the output block, hence the block IS that function.
-/
import proofs.«127236_j146028888173_1_alg».proof.Proof.Gen.KernelIdeal.Frame
import proofs.«127236_j146028888173_1_alg».proof.Proof.Tile
import Idealize.ShloMosaic.Lib.Pipeline.Value

noncomputable section

namespace Cert.KernelIdeal.Hand

open Idealize.ShloMosaic Idealize.ShloMosaic.TcCoe Idealize.SL.Sem
open Cert.KernelIdeal Cert.KernelIdeal.Gen Cert.Unshuffle

variable {F : FTy → Type} [FloatOps F]

/-- Where entry (k, h·32 + i, w·32 + j) of the output block comes from: entry (k, j·32 + i, h·16 + w) of the input block. -/
abbrev blockSrc (y : S4x512x512.Idx) : S4x1024x256.Idx := fun a => match a with
  | ⟨0, _⟩ => ⟨(y 0).val, (y 0).isLt⟩
  | ⟨1, _⟩ => ⟨(y 2).val % 32 * 32 + (y 1).val % 32, by show (y 2).val % 32 * 32 + (y 1).val % 32 < 1024; omega⟩
  | ⟨2, _⟩ => ⟨(y 1).val / 32 * 16 + (y 2).val / 32, by
      have h1 : (y 1).val < 512 := (y 1).isLt; have h2 : (y 2).val < 512 := (y 2).isLt
      show (y 1).val / 32 * 16 + (y 2).val / 32 < 256; omega⟩

/-- A stored value is the tile law's rearrangement of the loaded image. -/
theorem pay_apply (v : Vec F S1x1024x256 .f32) (y : S1x512x512.Idx) : k0_pay2 v y = v (tileSrc y) := by
  unfold k0_pay2
  exact tile_apply v _ _ _ _ _ y

/-- Image `k` of the input block, rearranged, is picture `k` of the block function. -/
theorem piece_apply (x0 : Vec F S4x1024x256 .f32) (k : Nat)
    (inbI : ∀ a, (![k, 0, 0] : Fin 3 → Nat) a + S1x1024x256.size a ≤ S4x1024x256.size a)
    (inbO : ∀ a, (![k, 0, 0] : Fin 3 → Nat) a + S1x512x512.size a ≤ S4x512x512.size a)
    (x : S1x512x512.Idx) :
    k0_pay2 (View.ld x0 (Rect.unit (s := S4x1024x256) ![k, 0, 0] S1x1024x256.size inbI)) x
      = x0 (blockSrc ((Rect.unit (s := S4x512x512) ![k, 0, 0] S1x512x512.size inbO).emb x)) := by
  rw [pay_apply]
  show x0 ((Rect.unit (s := S4x1024x256) ![k, 0, 0] S1x1024x256.size inbI).idx (tileSrc x)) = _
  refine congrArg x0 (funext fun a => Fin.ext ?_)
  have h0 : (x 0).val < 1 := (x 0).isLt
  match a with
  | ⟨0, _⟩ => show k + 1 * 0 = k + 1 * (x 0).val; omega
  | ⟨1, _⟩ =>
    show 0 + 1 * ((x 2).val % 32 * 32 + (x 1).val % 32) = (0 + 1 * (x 2).val) % 32 * 32 + (0 + 1 * (x 1).val) % 32
    omega
  | ⟨2, _⟩ =>
    show 0 + 1 * ((x 1).val / 32 * 16 + (x 2).val / 32) = (0 + 1 * (x 1).val) / 32 * 16 + (0 + 1 * (x 2).val) / 32
    omega

/-- THE BLOCK: after the body the output block is the input block read at `blockSrc`. -/
theorem out_block (x0 : Vec F S4x1024x256 .f32) (y : S4x512x512.Idx) : out0_1 x0 y = x0 (blockSrc y) := by
  unfold out0_1
  refine View.canon_apply_of_pieces (fun y => x0 (blockSrc y)) _ ?_ y (cover0_1 _ _ _ _ y)
  intro p hp x
  simp only [List.mem_cons, List.mem_nil_iff, or_false] at hp
  rcases hp with rfl | rfl | rfl | rfl
  · exact piece_apply x0 3 Facts₀.inb_S4x1024x256_S1x1024x256_3_0_0 Facts₀.inb_S4x512x512_S1x512x512_3_0_0 x
  · exact piece_apply x0 2 Facts₀.inb_S4x1024x256_S1x1024x256_2_0_0 Facts₀.inb_S4x512x512_S1x512x512_2_0_0 x
  · exact piece_apply x0 1 Facts₀.inb_S4x1024x256_S1x1024x256_1_0_0 Facts₀.inb_S4x512x512_S1x512x512_1_0_0 x
  · exact piece_apply x0 0 Facts₀.inb_S4x1024x256_S1x1024x256_0_0_0 Facts₀.inb_S4x512x512_S1x512x512_0_0_0 x

end Cert.KernelIdeal.Hand

end
-- ==== Proof.Spec.lean ====
/-
  The whole result as one function of the argument.

  For x : [256, 1024, 16, 16] (example n, channel c = j·32 + i, pixel (h, w)) the result is the [256, 1, 512, 512] array with
      out[n, 0, h·32 + i, w·32 + j] = x[n, j·32 + i, h, w]:
  each pixel becomes a 32 × 32 tile of its 1024 channels, the channel's low digit running down the tile, its high digit across.
  Both programs are shown to compute this function; no entry is changed, only moved, so nothing is asked of the entries.
-/
import Idealize.ShloMosaic.Shape

noncomputable section

namespace Cert.Unshuffle

open Idealize.ShloMosaic

abbrev TX : Shape := ⟨4, ![256, 1024, 16, 16]⟩
abbrev TO : Shape := ⟨4, ![256, 1, 512, 512]⟩

/-- Where out[n, 0, r, q] comes from: x[n, (q mod 32)·32 + r mod 32, r div 32, q div 32]. -/
abbrev src (i : TO.Idx) : TX.Idx := fun a => match a with
  | ⟨0, _⟩ => ⟨(i 0).val, (i 0).isLt⟩
  | ⟨1, _⟩ => ⟨(i 3).val % 32 * 32 + (i 2).val % 32, by show (i 3).val % 32 * 32 + (i 2).val % 32 < 1024; omega⟩
  | ⟨2, _⟩ => ⟨(i 2).val / 32, by have h2 : (i 2).val < 512 := (i 2).isLt; show (i 2).val / 32 < 16; omega⟩
  | ⟨3, _⟩ => ⟨(i 3).val / 32, by have h3 : (i 3).val < 512 := (i 3).isLt; show (i 3).val / 32 < 16; omega⟩

/-- The result array of an argument array. -/
def unshuffle {α : Type} (x : TX.Idx → α) : TO.Idx → α := fun i => x (src i)

theorem unshuffle_apply {α : Type} (x : TX.Idx → α) (i : TO.Idx) : unshuffle x i = x (src i) := rfl

end Cert.Unshuffle

end
-- ==== Proof.Array.lean ====
/-
  From blocks to the array, and the host lines around the region.

  Grid point t (of 64) stages images 4t … 4t + 3 of the [256, 1024, 256] array the region finds, and writes pictures
  4t … 4t + 3 of the [256, 512, 512] result. What it writes is the block function of Block.lean, so it is block t of ONE
  whole-array function: picture n is image n rearranged (`pictures`). The 64 blocks tile the result (example n lies in
  block n div 4), so the result array ends at `pictures` of the staged array.
  Before the region the host merges the pixel axes (h, w) into one axis of 256; after it the host inserts the unit channel axis.
  Neither moves a value in row-major order, and composing the three gives the specification (`value_eq`).
-/
import proofs.«127236_j146028888173_1_alg».proof.Proof.Block
import proofs.«127236_j146028888173_1_alg».proof.Proof.Spec
import Idealize.ShloMosaic.Lib.StableHlo.Run

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Unshuffle

variable {F : FTy → Type} [FloatOps F]
variable (m : (ℓ : Loc nD τ sig) → Buf (Elt F) ℓ) (ρ : Dev nD → PrngReg)

/-- Where entry (n, h·32 + i, w·32 + j) of the result array comes from: entry (n, j·32 + i, h·16 + w) of the staged array. -/
abbrev arrSrc (i : S256x512x512.Idx) : S256x1024x256.Idx := fun a => match a with
  | ⟨0, _⟩ => ⟨(i 0).val, (i 0).isLt⟩
  | ⟨1, _⟩ => ⟨(i 2).val % 32 * 32 + (i 1).val % 32, by show (i 2).val % 32 * 32 + (i 1).val % 32 < 1024; omega⟩
  | ⟨2, _⟩ => ⟨(i 1).val / 32 * 16 + (i 2).val / 32, by
      have h1 : (i 1).val < 512 := (i 1).isLt; have h2 : (i 2).val < 512 := (i 2).isLt
      show (i 1).val / 32 * 16 + (i 2).val / 32 < 256; omega⟩

/-- Every image rearranged into its picture. -/
abbrev pictures (a : S256x1024x256.Idx → Elt F .f32) : S256x512x512.Idx → Elt F .f32 := fun i => a (arrSrc i)

/-- The staged array, as the region finds it. -/
abbrev staged (c : Dev nD) : S256x1024x256.Idx → Elt F .f32 := V m c main_v0

/-- Both windows step along the example axis only: point t holds block t. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- WHAT POINT t WRITES BACK is block t of `pictures` of the staged array. -/
theorem flushed_eq (c : Dev nD) (t : Fin cfg0.N) :
    (dats m 0 c).flushed 1 t = ((cfg0.win 1).blk t).view.read (Elt F) (pictures (staged m c)) := by
  show (cfg0.win 1).cut (grid0.coords t) ((dats m 0 c).after 1 t) = _
  rw [after0_1]
  obtain ⟨e0, e1, e2, e3, e4, e5⟩ := idx_facts t
  funext y
  show out0_1 (iblk m c 0 t) y = staged m c (arrSrc (((cfg0.win 1).blk t).view.emb y))
  refine (out_block (iblk m c 0 t) y).trans ?_
  show staged m c (((cfg0.win 0).blk t).view.emb (blockSrc y)) = _
  refine congrArg (staged m c) (funext fun a => Fin.ext ?_)
  match a with
  | ⟨0, _⟩ =>
    show win0_0.index t (0 : Fin 3) * 4 + 1 * (y 0).val = win0_1.index t (0 : Fin 3) * 4 + 1 * (y 0).val
    omega
  | ⟨1, _⟩ =>
    show win0_0.index t (1 : Fin 3) * 1024 + 1 * ((y 2).val % 32 * 32 + (y 1).val % 32)
      = (win0_1.index t (2 : Fin 3) * 512 + 1 * (y 2).val) % 32 * 32 + (win0_1.index t (1 : Fin 3) * 512 + 1 * (y 1).val) % 32
    omega
  | ⟨2, _⟩ =>
    show win0_0.index t (2 : Fin 3) * 256 + 1 * ((y 1).val / 32 * 16 + (y 2).val / 32)
      = (win0_1.index t (1 : Fin 3) * 512 + 1 * (y 1).val) / 32 * 16 + (win0_1.index t (2 : Fin 3) * 512 + 1 * (y 2).val) / 32
    omega

/-- An index of the result array is in point t's block iff each coordinate is in the block's range on its axis. -/
theorem mem_blk (t : Fin cfg0.N) (i : S256x512x512.Idx) :
    i ∈ ((cfg0.win 1).blk t).view.set ↔ ∀ a : Fin 3, win0_1.index t a * S4x512x512.size a ≤ (i a).val
      ∧ (i a).val < win0_1.index t a * S4x512x512.size a + S4x512x512.size a := by
  show i ∈ ((View.whole main_v1).slice (win0_1.rect t)).set ↔ _
  rw [View.set_slice_whole, Rect.mem_set_unit]
  exact Iff.rfl

/-- Example n lies in the block of point n div 4. -/
theorem cover (i : S256x512x512.Idx) :
    ∃ t : Fin cfg0.N, (cfg0.win 1).flush t = true ∧ i ∈ ((cfg0.win 1).blk t).view.set := by
  have h0 : (i 0).val < 256 := (i 0).isLt
  have h1 : (i 1).val < 512 := (i 1).isLt
  have h2 : (i 2).val < 512 := (i 2).isLt
  have hN : (i 0).val / 4 < cfg0.N := by show _ < grid0.N; rw [N_0]; omega
  obtain ⟨-, -, -, e3, e4, e5⟩ := idx_facts ⟨(i 0).val / 4, hN⟩
  have e3' : win0_1.index ⟨(i 0).val / 4, hN⟩ (0 : Fin 3) = (i 0).val / 4 := e3
  refine ⟨⟨(i 0).val / 4, hN⟩, flush0_1 _, ?_⟩
  rw [mem_blk]
  intro a
  match a with
  | ⟨0, _⟩ =>
    show win0_1.index _ (0 : Fin 3) * 4 ≤ (i 0).val ∧ (i 0).val < win0_1.index _ (0 : Fin 3) * 4 + 4
    omega
  | ⟨1, _⟩ =>
    show win0_1.index _ (1 : Fin 3) * 512 ≤ (i 1).val ∧ (i 1).val < win0_1.index _ (1 : Fin 3) * 512 + 512
    omega
  | ⟨2, _⟩ =>
    show win0_1.index _ (2 : Fin 3) * 512 ≤ (i 2).val ∧ (i 2).val < win0_1.index _ (2 : Fin 3) * 512 + 512
    omega

/-- THE RESULT ARRAY after the region: every image of the staged array rearranged into its picture. -/
theorem final (c : Dev nD) : (dats m 0 c).arrAt 1 cfg0.N = pictures (staged m c) :=
  (dats m 0 c).arrAt_eq_of_cover 1 (pictures (staged m c)) (fun t _ => flushed_eq m c t) cover

/-- The staged array is the argument with its two pixel axes merged. -/
theorem staged_eq (c : Dev nD) :
    staged m c = shapeCast S256x1024x256 (m ((c : Thread nD τ).loc main_arg0)) Facts₀.shapeCasts_S256x1024x16x16_S256x1024x256 := by
  show StableHlo.after hostOps0 (fun b => m (c, b)) (Proc.devRef .tc main_v0) = _
  after_results
  rfl

/-- Entry (n, 0, r, q) of the result with its unit channel axis dropped: (n, r, q). -/
abbrev picIdx (i : S256x1x512x512.Idx) : S256x512x512.Idx := fun a => match a with
  | ⟨0, _⟩ => ⟨(i 0).val, (i 0).isLt⟩
  | ⟨1, _⟩ => ⟨(i 2).val, (i 2).isLt⟩
  | ⟨2, _⟩ => ⟨(i 3).val, (i 3).isLt⟩

/-- The three steps composed, index by index: insert the channel axis ∘ rearrange every image ∘ merge the pixel axes is
    the specification. -/
theorem value_eq (x : S256x1024x16x16.Idx → Elt F .f32) :
    broadcastInDim S256x1x512x512 ![0, 2, 3] Facts₀.bcast_S256x512x512_S256x1x512x512_0_2_3
      (pictures (shapeCast S256x1024x256 x Facts₀.shapeCasts_S256x1024x16x16_S256x1024x256)) = unshuffle x := by
  funext i
  have h0 : (i 0).val < 256 := (i 0).isLt
  have h1 : (i 1).val < 1 := (i 1).isLt
  have h2 : (i 2).val < 512 := (i 2).isLt
  have h3 : (i 3).val < 512 := (i 3).isLt
  -- the inserted unit axis reads the picture at (n, r, q)
  refine (broadcastInDim_apply ![0, 2, 3] Facts₀.bcast_S256x512x512_S256x1x512x512_0_2_3 _ i
    (picIdx i) (fun a => match a with
      | ⟨0, _⟩ => rfl
      | ⟨1, _⟩ => rfl
      | ⟨2, _⟩ => rfl)).trans ?_
  -- the picture reads the merged array at (n, j·32 + i, h·16 + w), which is the argument at (n, j·32 + i, h, w)
  refine (shapeCast_apply x Facts₀.shapeCasts_S256x1024x16x16_S256x1024x256 _ (src i) ?_).trans (unshuffle_apply x i).symm
  rewrite [Shape.rowMajor_val_four, Shape.rowMajor_val_three]
  show ((((i 0).val * 1024 + ((i 3).val % 32 * 32 + (i 2).val % 32)) * 16 + (i 2).val / 32) * 16 + (i 3).val / 32)
    = ((i 0).val * 1024 + ((i 3).val % 32 * 32 + (i 2).val % 32)) * 256 + ((i 2).val / 32 * 16 + (i 3).val / 32)
  omega

/-- @main's result after the host line that follows the region. -/
theorem result_eq (c : Dev nD) :
    Pipeline.afterTail₀ cfgs (dats m) 0 (V0 m) [hostOps1] c main_v2 = unshuffle (m ((c : Thread nD τ).loc main_arg0)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = pictures (staged m c) :=
    (Pipeline.withArrays_arr spec0 launch0.win.arr_inj c _ _ 1).trans (final m c)
  rw [e, staged_eq]
  exact value_eq _

/-- THE KERNEL'S RUN, READ: @main ends with its result at the specification of its argument, the argument unchanged.
    The result buffer is no array of the pipeline, so the run's post gives it as the host line after the region leaves it. -/
theorem run : θ_run defs (onTc (τ := τ) (main (F := F))) ⟨m, fun _ => 0, ρ⟩ fun r => ∀ c : Dev nD,
      r.2.mem ((c : Thread nD τ).loc main_v2) = unshuffle (m ((c : Thread nD τ).loc main_arg0))
      ∧ r.2.mem ((c : Thread nD τ).loc main_arg0) = m ((c : Thread nD τ).loc main_arg0) :=
  (θ_run defs _ _).mono (fun r h c =>
    ⟨((h c).2 main_v2 (Pipeline.mem_restRefs_of main_v2 (by decide) (by decide))).trans (result_eq m c),
     ((h c).2 main_arg0 (Pipeline.mem_restRefs_of main_arg0 (by decide) (by decide))).trans (W_main_arg0 m (dats m) c)⟩)
    (run_main m ρ)

end Cert.KernelIdeal.Hand

end
-- ==== Proof.RefValue.lean ====
/-
  The reference computes the specification.

  The reference splits the channel axis into (j, i), permutes (n, j, i, h, w) to (n, h, i, w, j), and merges (h, i) and (w, j)
  under a unit channel axis. Read at out[n, 0, r, q] and followed back through the three steps, it reads
  x[n, (q mod 32)·32 + r mod 32, r div 32, q div 32]: the merge splits r and q into their base-32 digits, the permutation
  reorders them, and the first step recombines the two channel digits. That is `Cert.Unshuffle.src`.
-/
import proofs.«127236_j146028888173_1_alg».proof.Proof.Gen.ReferenceIdeal.Read
import proofs.«127236_j146028888173_1_alg».proof.Proof.Spec

noncomputable section

namespace Cert.ReferenceIdeal.Hand

open Idealize.ShloMosaic Cert.ReferenceIdeal Cert.ReferenceIdeal.Read Cert.Unshuffle

variable {F : FTy → Type} [FloatOps F]

/-- Position (n·1 + 0)·512² + r·512 + q of the merged picture, split back into example and base-32 digits of r and q. -/
theorem split_pos (n z r q : Nat) (hz : z < 1) (hr : r < 512) (hq : q < 512) :
    (((n * 1 + z) * 512 + r) * 512 + q) / 262144 = n ∧ (((n * 1 + z) * 512 + r) * 512 + q) / 16384 % 16 = r / 32 ∧ (((n * 1 + z) * 512 + r) * 512 + q) / 512 % 32 = r % 32
      ∧ (((n * 1 + z) * 512 + r) * 512 + q) / 32 % 16 = q / 32 ∧ (((n * 1 + z) * 512 + r) * 512 + q) % 32 = q % 32 := by
  refine ⟨?_, ?_, ?_, ?_, ?_⟩ <;> omega

/-- Example n, channel digits j and k, pixel (h, w), recombined into position ((n·32 + j)·32 + k)·256 + h·16 + w of the
    argument and split by the argument's own axes: example n, channel j·32 + k, pixel (h, w). -/
theorem join_pos (n j k h w : Nat) (hj : j < 32) (hk : k < 32) (hh : h < 16) (hw : w < 16) :
    ((((n * 32 + j) * 32 + k) * 16 + h) * 16 + w) / 262144 = n ∧ ((((n * 32 + j) * 32 + k) * 16 + h) * 16 + w) / 256 % 1024 = j * 32 + k ∧ ((((n * 32 + j) * 32 + k) * 16 + h) * 16 + w) / 16 % 16 = h ∧ ((((n * 32 + j) * 32 + k) * 16 + h) * 16 + w) % 16 = w := by
  refine ⟨?_, ?_, ?_, ?_⟩ <;> omega

/-- The three index maps composed are the specification's source index. -/
theorem idx_comp (i : S256x1x512x512.Idx) : idx_main_v0 (idx_main_v1 (idx_main_v2 i)) = src i := by
  have h0 : (i 0).val < 256 := (i 0).isLt
  have h1 : (i 1).val < 1 := (i 1).isLt
  have h2 : (i 2).val < 512 := (i 2).isLt
  have h3 : (i 3).val < 512 := (i 3).isLt
  obtain ⟨s0, s1, s2, s3, s4⟩ := split_pos (i 0).val (i 1).val (i 2).val (i 3).val h1 h2 h3
  funext a
  apply Fin.ext
  match a with
  | ⟨0, _⟩ =>
    show ((((((((((i 0).val * 1 + (i 1).val) * 512 + (i 2).val) * 512 + (i 3).val) / 262144) * 32 + (((((i 0).val * 1 + (i 1).val) * 512 + (i 2).val) * 512 + (i 3).val) % 32)) * 32 + (((((i 0).val * 1 + (i 1).val) * 512 + (i 2).val) * 512 + (i 3).val) / 512 % 32)) * 16 + (((((i 0).val * 1 + (i 1).val) * 512 + (i 2).val) * 512 + (i 3).val) / 16384 % 16)) * 16 + (((((i 0).val * 1 + (i 1).val) * 512 + (i 2).val) * 512 + (i 3).val) / 32 % 16))) / 262144
      = (i 0).val
    rw [s0, s1, s2, s3, s4]
    exact (join_pos (i 0).val ((i 3).val % 32) ((i 2).val % 32) ((i 2).val / 32) ((i 3).val / 32)
      (Nat.mod_lt _ (by decide)) (Nat.mod_lt _ (by decide)) (by omega) (by omega)).1
  | ⟨1, _⟩ =>
    show ((((((((((i 0).val * 1 + (i 1).val) * 512 + (i 2).val) * 512 + (i 3).val) / 262144) * 32 + (((((i 0).val * 1 + (i 1).val) * 512 + (i 2).val) * 512 + (i 3).val) % 32)) * 32 + (((((i 0).val * 1 + (i 1).val) * 512 + (i 2).val) * 512 + (i 3).val) / 512 % 32)) * 16 + (((((i 0).val * 1 + (i 1).val) * 512 + (i 2).val) * 512 + (i 3).val) / 16384 % 16)) * 16 + (((((i 0).val * 1 + (i 1).val) * 512 + (i 2).val) * 512 + (i 3).val) / 32 % 16))) / 256 % 1024
      = (i 3).val % 32 * 32 + (i 2).val % 32
    rw [s0, s1, s2, s3, s4]
    exact (join_pos (i 0).val ((i 3).val % 32) ((i 2).val % 32) ((i 2).val / 32) ((i 3).val / 32)
      (Nat.mod_lt _ (by decide)) (Nat.mod_lt _ (by decide)) (by omega) (by omega)).2.1
  | ⟨2, _⟩ =>
    show ((((((((((i 0).val * 1 + (i 1).val) * 512 + (i 2).val) * 512 + (i 3).val) / 262144) * 32 + (((((i 0).val * 1 + (i 1).val) * 512 + (i 2).val) * 512 + (i 3).val) % 32)) * 32 + (((((i 0).val * 1 + (i 1).val) * 512 + (i 2).val) * 512 + (i 3).val) / 512 % 32)) * 16 + (((((i 0).val * 1 + (i 1).val) * 512 + (i 2).val) * 512 + (i 3).val) / 16384 % 16)) * 16 + (((((i 0).val * 1 + (i 1).val) * 512 + (i 2).val) * 512 + (i 3).val) / 32 % 16))) / 16 % 16
      = (i 2).val / 32
    rw [s0, s1, s2, s3, s4]
    exact (join_pos (i 0).val ((i 3).val % 32) ((i 2).val % 32) ((i 2).val / 32) ((i 3).val / 32)
      (Nat.mod_lt _ (by decide)) (Nat.mod_lt _ (by decide)) (by omega) (by omega)).2.2.1
  | ⟨3, _⟩ =>
    show ((((((((((i 0).val * 1 + (i 1).val) * 512 + (i 2).val) * 512 + (i 3).val) / 262144) * 32 + (((((i 0).val * 1 + (i 1).val) * 512 + (i 2).val) * 512 + (i 3).val) % 32)) * 32 + (((((i 0).val * 1 + (i 1).val) * 512 + (i 2).val) * 512 + (i 3).val) / 512 % 32)) * 16 + (((((i 0).val * 1 + (i 1).val) * 512 + (i 2).val) * 512 + (i 3).val) / 16384 % 16)) * 16 + (((((i 0).val * 1 + (i 1).val) * 512 + (i 2).val) * 512 + (i 3).val) / 32 % 16))) % 16
      = (i 3).val / 32
    rw [s0, s1, s2, s3, s4]
    exact (join_pos (i 0).val ((i 3).val % 32) ((i 2).val % 32) ((i 2).val / 32) ((i 3).val / 32)
      (Nat.mod_lt _ (by decide)) (Nat.mod_lt _ (by decide)) (by omega) (by omega)).2.2.2

/-- THE REFERENCE'S RESULT is the specification of its argument. -/
theorem ref_eq (x : (⟨S256x1024x16x16, .f32⟩ : BufTy).Contents (Elt F)) :
    val_main_v2 (F := F) x = unshuffle x := by
  funext i
  rw [val_main_v2_apply, val_main_v1_apply, val_main_v0_apply, idx_comp]
  rfl

end Cert.ReferenceIdeal.Hand

end
-- ==== Proof.lean ====
/-
  A transposed pixel-unshuffle, kernel against reference: both move every entry of x : [256, 1024, 16, 16] to
      out[n, 0, h·32 + i, w·32 + j] = x[n, j·32 + i, h, w]
  and change none (Proof/Spec.lean: `Cert.Unshuffle.unshuffle`).

  The kernel merges the pixel axes on the host, then, four examples per grid point, rearranges each image as a [1024, 256]
  matrix into a [512, 512] picture by reshape–permute–reshape (Proof/Tile.lean: the picture read at an index; Proof/Block.lean:
  the four stores of a point are one block function; Proof/Array.lean: the 64 blocks tile the result, and the host lines
  before and after the region compose with it to the specification). The reference does one reshape–permute–reshape of the
  whole array (Proof/RefValue.lean: its three index maps composed are the specification's). Since both results are the same
  function of arguments that agree, they are equal entry by entry, whatever the entries are: the precondition is not used.
  The ideal pass rewrote nothing, so the idealized kernel is the kernel's own text and `preserves` asks nothing.
-/
import proofs.«127236_j146028888173_1_alg».proof.Defs
import proofs.«127236_j146028888173_1_alg».proof.Proof.Gen.Kernel
import proofs.«127236_j146028888173_1_alg».proof.Proof.Gen.Kernel.Skeleton
import proofs.«127236_j146028888173_1_alg».proof.Proof.Gen.Kernel.Launch
import proofs.«127236_j146028888173_1_alg».proof.Proof.Gen.Kernel.Points
import proofs.«127236_j146028888173_1_alg».proof.Proof.Gen.Kernel.Frame
import proofs.«127236_j146028888173_1_alg».proof.Proof.Gen.KernelIdeal
import proofs.«127236_j146028888173_1_alg».proof.Proof.Gen.KernelIdeal.Skeleton
import proofs.«127236_j146028888173_1_alg».proof.Proof.Gen.KernelIdeal.Launch
import proofs.«127236_j146028888173_1_alg».proof.Proof.Gen.KernelIdeal.Points
import proofs.«127236_j146028888173_1_alg».proof.Proof.Gen.KernelIdeal.Frame
import proofs.«127236_j146028888173_1_alg».proof.Proof.Gen.ReferenceIdeal
import proofs.«127236_j146028888173_1_alg».proof.Proof.Gen.Pre_finite_inputs
import proofs.«127236_j146028888173_1_alg».proof.Proof.Gen.ReferenceIdeal.Run
import proofs.«127236_j146028888173_1_alg».proof.Proof.Gen.ReferenceIdeal.Read
import proofs.«127236_j146028888173_1_alg».proof.Proof.Array
import proofs.«127236_j146028888173_1_alg».proof.Proof.RefValue
import Idealize.ShloMosaic.Adequacy
import Idealize.ShloMosaic.Init

noncomputable section

namespace Cert.Proof

open Idealize.ShloMosaic Idealize.SL.Sem

/-- The kernel as printed runs and keeps its argument. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is three host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end with the result at `unshuffle` of arguments that agree. -/
theorem algebraic : Cert.algebraic_KernelIdeal_ReferenceIdeal := by
  intro m ρ m' ρ' _ hagree
  refine ⟨fun c => Cert.Unshuffle.unshuffle (m ((c.tc : Thread Cert.KernelIdeal.nD Cert.KernelIdeal.τ).loc Cert.KernelIdeal.main_arg0)),
    Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  exact (Cert.ReferenceIdeal.Read.val_main_v2_eq (F := Ideal) _).trans
    ((Cert.ReferenceIdeal.Hand.ref_eq (F := Ideal) _).trans (congrArg Cert.Unshuffle.unshuffle (hagree c)))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
